-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S4096x4096 : Shape := ⟨2, ![4096, 4096]⟩
abbrev S4096x128 : Shape := ⟨2, ![4096, 128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S128x4096 .f32) (main_arg1 : FVec F S4096x4096 .f32) (main_arg2 : FVec F S4096x128 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S128x4096 : Shape := ⟨2, ![128, 4096]⟩
abbrev S4096x4096 : Shape := ⟨2, ![4096, 4096]⟩
abbrev S4096x128 : Shape := ⟨2, ![4096, 128]⟩
abbrev S512x4096 : Shape := ⟨2, ![512, 4096]⟩
abbrev S512x128 : Shape := ⟨2, ![512, 128]⟩

abbrev nBuf : Space → Nat
  | .hbm => 6
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S4096x128, .f32⟩
  | .hbm, ⟨3, _⟩ => ⟨S4096x128, .bf16⟩
  | .hbm, ⟨4, _⟩ => ⟨S128x4096, .bf16⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S128x4096, .bf16⟩
  | .local _ .vmem, ⟨4, _⟩ => ⟨S512x4096, .f32⟩
  | .local _ .vmem, ⟨5, _⟩ => ⟨S512x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  dot_S512x4096_S4096x128_S512x128_1_0_0_1_n_n_wf : DotDims.WF S512x4096 S4096x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .bf16 = 32 ∨ (Rect.block (s := S128x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .f32 = 32 ∨ (Rect.block (s := S4096x4096) S512x4096.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4096 : Shape := ⟨2, ![128, 4096]⟩
abbrev S4096x4096 : Shape := ⟨2, ![4096, 4096]⟩
abbrev S4096x128 : Shape := ⟨2, ![4096, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S4096x128, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x128_S128x4096_S4096x4096_1_0_0_1_n_n_wf : DotDims.WF S4096x128 S128x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Reassociate.lean ====
import Idealize.ShloMosaic.PureOps.Ideal
import Idealize.ShloMosaic.Lib.ValueIdx

noncomputable section

open scoped BigOperators

/-! # A graph layer's two bracketings

The layer is `relu (A · (W · X))` for `A : [4096, 4096]`, `W : [4096, 128]`, `X : [128, 4096]`. Through the
rank-128 bottleneck the same matrix is `relu ((A · W) · X)`. On the extended reals the two bracketings agree as
soon as every entry is a real number: the triple sum `∑ l k, A i l * W l k * X k j` is then a finite sum of reals,
which may be taken in either order, and a real factor distributes over it. (With an infinite entry distributivity
can fail, so the hypothesis is needed.) -/

namespace Cert.Layer

open Idealize.ShloMosaic Idealize.ShloMosaic.ValueIdx

/-- Every entry of the array is a real number. -/
def AllReal {ι : Type} (x : ι → EReal) : Prop := ∀ i, ∃ r : ℝ, x i = (r : EReal)

/-- The inclusion of the reals in the extended reals commutes with finite sums. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Associativity of the matrix product, one entry, over the reals: both sides are `∑ l k, a l * w l k * f k`. -/
theorem assoc_real {L K : Type} [Fintype L] [Fintype K] (a : L → ℝ) (w : L → K → ℝ) (f : K → ℝ) :
    ∑ k, (∑ l, a l * w l k) * f k = ∑ l, a l * ∑ k, w l k * f k := by
  simp only [Finset.sum_mul, Finset.mul_sum]
  rw [Finset.sum_comm]
  exact Finset.sum_congr rfl fun l _ => Finset.sum_congr rfl fun k _ => mul_assoc _ _ _

/-- The same on the extended reals, for a row, a matrix and a column of real entries. -/
theorem assoc_ereal {L K : Type} [Fintype L] [Fintype K] (a : L → EReal) (w : L → K → EReal) (f : K → EReal)
    (ha : ∀ l, ∃ r : ℝ, a l = (r : EReal)) (hw : ∀ l k, ∃ r : ℝ, w l k = (r : EReal)) (hf : ∀ k, ∃ r : ℝ, f k = (r : EReal)) :
    ∑ k, (∑ l, a l * w l k) * f k = ∑ l, a l * ∑ k, w l k * f k := by
  choose a' ha using ha
  choose w' hw using hw
  choose f' hf using hf
  simp only [ha, hw, hf, ← EReal.coe_mul, coe_sum]
  exact congrArg Real.toEReal (assoc_real a' w' f')

abbrev SX : Shape := ⟨2, ![128, 4096]⟩
abbrev SA : Shape := ⟨2, ![4096, 4096]⟩
abbrev SW : Shape := ⟨2, ![4096, 128]⟩

/-- `relu (A · (W · X))` at an entry. -/
def layer (x : SX.Idx → EReal) (a : SA.Idx → EReal) (w : SW.Idx → EReal) : SA.Idx → EReal :=
  fun i => max (∑ l : Fin 4096, a (ix2 (i 0) l) * ∑ k : Fin 128, w (ix2 l k) * x (ix2 k (i 1))) 0

/-- `relu ((A · W) · X)` at an entry. -/
def layerLeft (x : SX.Idx → EReal) (a : SA.Idx → EReal) (w : SW.Idx → EReal) : SA.Idx → EReal :=
  fun i => max (∑ k : Fin 128, (∑ l : Fin 4096, a (ix2 (i 0) l) * w (ix2 l k)) * x (ix2 k (i 1))) 0

/-- On arrays of real entries the two bracketings are one function. -/
theorem layerLeft_eq_layer (x : SX.Idx → EReal) (a : SA.Idx → EReal) (w : SW.Idx → EReal)
    (hx : AllReal x) (ha : AllReal a) (hw : AllReal w) : layerLeft x a w = layer x a w := by
  funext i
  unfold layerLeft layer
  rw [assoc_ereal (fun l => a (ix2 (i 0) l)) (fun l k => w (ix2 l k)) (fun k => x (ix2 k (i 1)))
    (fun l => ha _) (fun l k => hw _) (fun k => hx _)]

end Cert.Layer

end
-- ==== Proof.ReferenceValue.lean ====
import proofs.«140375_g18554258718905_cont_8to1_1676_8_alg».proof.Proof.Gen.ReferenceIdeal.Read
import proofs.«140375_g18554258718905_cont_8to1_1676_8_alg».proof.Proof.Reassociate

noncomputable section

open scoped BigOperators

/-! # The reference's result is the right-bracketed layer

The reference multiplies `W · X` first, then `A` by that product, and takes the maximum with zero. Read entry by
entry its result at `(r, c)` is `max (∑ l, A (r, l) * ∑ k, W (l, k) * X (k, c)) 0`, which is `Layer.layer`. No
hypothesis on the entries is needed here. -/

namespace Cert.ReferenceIdeal.RefValue

open Cert.ReferenceIdeal Cert.ReferenceIdeal.Gen Cert.ReferenceIdeal.Read
open Idealize.ShloMosaic Idealize.ShloMosaic.ValueIdx Cert.Layer

/-- The outer product's left operand is read at `(r, l)`. -/
theorem lidx_outer (i : S4096x4096.Idx) (l : Fin 4096) : lidx_main_v1 i l = ix2 (i 0) l :=
  funext fun a => Fin.ext (by match a with | ⟨0, _⟩ => rfl | ⟨1, _⟩ => rfl)

/-- The inner product, read where the outer product reads its right operand, takes `W` at `(l, k)`. -/
theorem lidx_inner (i : S4096x4096.Idx) (l : Fin 4096) (k : Fin 128) : lidx_main_v0 (ridx_main_v1 i l) k = ix2 l k :=
  funext fun a => Fin.ext (by match a with | ⟨0, _⟩ => rfl | ⟨1, _⟩ => rfl)

/-- and `X` at `(k, c)`. -/
theorem ridx_inner (i : S4096x4096.Idx) (l : Fin 4096) (k : Fin 128) : ridx_main_v0 (ridx_main_v1 i l) k = ix2 k (i 1) :=
  funext fun a => Fin.ext (by match a with | ⟨0, _⟩ => rfl | ⟨1, _⟩ => rfl)

/-- The reference's result array is `relu (A · (W · X))` of its three arguments. -/
theorem result_eq (x : (⟨S128x4096, .f32⟩ : BufTy).Contents (Elt Ideal)) (a : (⟨S4096x4096, .f32⟩ : BufTy).Contents (Elt Ideal))
    (w : (⟨S4096x128, .f32⟩ : BufTy).Contents (Elt Ideal)) :
    val_main_v2 (F := Ideal) x a w = layer x a w := by
  funext i
  rw [val_main_v2_apply, val_main_v1_apply, val_main_call0_v0_apply, val_main_call0_cst_apply]
  simp only [val_main_v0_apply, lidx_outer, lidx_inner, ridx_inner]
  show max _ (Ideal.ofBits .f32 0x00000000#32) = _
  rw [Ideal.ofBits_zero_f32]
  rfl

end Cert.ReferenceIdeal.RefValue

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.BodyValue.lean ====
import proofs.«140375_g18554258718905_cont_8to1_1676_8_alg».proof.Proof.Gen.KernelIdeal.Skeleton
import proofs.«140375_g18554258718905_cont_8to1_1676_8_alg».proof.Proof.LibPlainDot
import Idealize.ShloMosaic.Lib.Pipeline.Value
import Idealize.ShloMosaic.Lib.ValueIdx
import Idealize.ShloMosaic.PureOps.Ideal.Laws

noncomputable section

open scoped BigOperators

/-! # What the kernel body stores, at an entry

The body takes a `[512, 4096]` block of rows of `A`, all of `W` and all of `X`, forms the `[512, 128]` product
`P = A_blk · W`, then `P · X`, and stores the maximum of that with zero. The changes of float format between the steps
are the identity on the extended reals, and the two shape casts are casts to the same shape. So the stored value at
`(p, q)` is `max (∑ k, (∑ l, A_blk (p, l) * W (l, k)) * X (k, q)) 0`. -/

namespace Cert.KernelIdeal.BodyValue

open Cert.KernelIdeal Cert.KernelIdeal.Gen
open Idealize.ShloMosaic Idealize.ShloMosaic.ValueIdx

theorem stored_apply (ablk : Vec Ideal S512x4096 .f32) (w : Vec Ideal S4096x128 .bf16) (x : Vec Ideal S128x4096 .bf16)
    (p : Fin 512) (q : Fin 4096) :
    k0_pay1 (F := Ideal) ablk w x (ix2 p q)
      = max (∑ k : Fin 128, (∑ l : Fin 4096, ablk (ix2 p l) * w (ix2 l k)) * x (ix2 k q)) 0 := by
  unfold k0_pay1
  show max (FloatOps.matmul dot_S512x128_S128x4096_S512x4096_1_0_0_1_n_n none
      (truncf .bf16 (matmul dot_S512x4096_S4096x128_S512x128_1_0_0_1_n_n none (truncf .bf16 ablk bitsLt_bf16_f32)
        (shapeCast S4096x128 w shapeCasts_S4096x128_S4096x128) (constant S512x128 .f32 0x00000000#32)) bitsLt_bf16_f32)
      (shapeCast S128x4096 x shapeCasts_S128x4096_S128x4096) (constant S512x4096 .f32 0x00000000#32) (ix2 p q))
    (Ideal.ofBits .f32 0x00000000#32) = _
  rw [shapeCast_self, shapeCast_self, Ideal.ofBits_zero_f32,
    Cert.PlainDot.matmul_zero_apply (M := 512) (K := 128) (N := 4096) dot_S512x128_S128x4096_S512x4096_1_0_0_1_n_n rfl]
  refine congrArg (fun s => max s (0 : EReal)) (Finset.sum_congr rfl fun k _ => ?_)
  show (FloatOps.matmul (F := Ideal) (φ₁ := .bf16) (φ₂ := .bf16) dot_S512x4096_S4096x128_S512x128_1_0_0_1_n_n none (truncf .bf16 ablk bitsLt_bf16_f32) w
      (constant S512x128 .f32 0x00000000#32) (ix2 p k) : EReal) * (x (ix2 k q) : EReal) = _
  rw [Cert.PlainDot.matmul_zero_apply (M := 512) (K := 4096) (N := 128) dot_S512x4096_S4096x128_S512x128_1_0_0_1_n_n rfl]
  rfl

end Cert.KernelIdeal.BodyValue

end
-- ==== Proof.ArrayValue.lean ====
import proofs.«140375_g18554258718905_cont_8to1_1676_8_alg».proof.Proof.Gen.KernelIdeal.Value
import proofs.«140375_g18554258718905_cont_8to1_1676_8_alg».proof.Proof.BodyValue
import proofs.«140375_g18554258718905_cont_8to1_1676_8_alg».proof.Proof.Reassociate
import Idealize.ShloMosaic.Lib.Pipeline.Value
import Idealize.ShloMosaic.Lib.StableHlo.Run
import Idealize.ShloMosaic.Lib.ValueIdx

noncomputable section

open scoped BigOperators

/-! # The kernel's result array is the left-bracketed layer

The grid has eight points; point `t` takes rows `512 t … 512 t + 511` of `A` (all 4096 columns), all of `W` and all
of `X`, and writes rows `512 t … 512 t + 511` of the result. So what point `t` writes is block `t` of the one
whole-array function `relu ((A · W) · X)`, the eight blocks cover the result (row `r` lies in block `r / 512`), and
the result array ends at that function of the arrays the kernel is launched on. `W` and `X` reach the kernel through a
change of float format on the host, which is the identity on the extended reals. -/

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Layer

variable (m : (ℓ : Loc nD τ sig) → Buf (Elt Ideal) ℓ) (ρ : Dev nD → PrngReg)

theorem zero_off : (![0, 0] : Fin 2 → Nat) = fun _ => 0 := funext fun a => by fin_cases a <;> rfl

/-- The block indices at point `t`: the row blocks of `A` and of the result are block `t`, column block 0; `W` and `X`
    are taken whole at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three arrays the kernel's windows read, as the region finds them. -/
abbrev arrA (c : Dev nD) : S4096x4096.Idx → EReal := V m c main_arg1
abbrev arrW (c : Dev nD) : S4096x128.Idx → EReal := V m c main_call0_v0
abbrev arrX (c : Dev nD) : S128x4096.Idx → EReal := V m c main_call0_v1

/-- What point `t` writes back is block `t` of `relu ((A · W) · X)`. -/
theorem flushed_eq (c : Dev nD) (t : Fin cfg0.N) :
    (dats m 0 c).flushed 3 t
      = ((cfg0.win 3).blk t).view.read (Elt Ideal) (layerLeft (arrX m c) (arrA m c) (arrW m c)) := by
  rw [Value.flushed3]
  unfold out0_3
  rw [View.canon_unit_zero zero_off]
  simp only [View.ld_unit_zero (S := S512x4096) zero_off, View.ld_unit_zero (S := S4096x128) zero_off,
    View.ld_unit_zero (S := S128x4096) zero_off]
  obtain ⟨e00, e01, e10, e11, e20, e21, e30, e31⟩ := index_facts t
  funext j
  obtain ⟨p, q, rfl⟩ : ∃ (p : Fin 512) (q : Fin 4096), j = ix2 p q := ⟨j 0, j 1, eq_ix2 j⟩
  show k0_pay1 (F := Ideal) (iblk m c 0 t) (iblk m c 1 t) (iblk m c 2 t) (ix2 p q)
    = layerLeft (arrX m c) (arrA m c) (arrW m c) (((cfg0.win 3).blk t).view.emb (ix2 p q))
  refine (BodyValue.stored_apply (iblk m c 0 t) (iblk m c 1 t) (iblk m c 2 t) p q).trans ?_
  unfold layerLeft
  refine congrArg (fun s => max s (0 : EReal)) (Finset.sum_congr rfl fun k _ => ?_)
  -- row `p` of the block of `A` is row `512 t + p` of `A`
  have hA : ∀ l : Fin 4096, iblk m c 0 t (ix2 p l)
      = arrA m c (ix2 ((((cfg0.win 3).blk t).view.emb (ix2 p q)) 0) l) := fun l => by
    show V m c main_arg1 (((cfg0.win 0).blk t).view.emb (ix2 p l)) = V m c main_arg1 _
    refine congrArg _ (funext fun a => Fin.ext ?_)
    match a with
    | ⟨0, _⟩ =>
      show win0_0.index t (0 : Fin 2) * 512 + 1 * p.val = win0_3.index t (0 : Fin 2) * 512 + 1 * p.val
      omega
    | ⟨1, _⟩ =>
      show win0_0.index t (1 : Fin 2) * 4096 + 1 * l.val = l.val
      omega
  -- the block of `W` is `W`
  have hW : ∀ l : Fin 4096, iblk m c 1 t (ix2 l k) = arrW m c (ix2 l k) := fun l => by
    show V m c main_call0_v0 (((cfg0.win 1).blk t).view.emb (ix2 l k)) = V m c main_call0_v0 _
    refine congrArg _ (funext fun a => Fin.ext ?_)
    match a with
    | ⟨0, _⟩ =>
      show win0_1.index t (0 : Fin 2) * 4096 + 1 * l.val = l.val
      omega
    | ⟨1, _⟩ =>
      show win0_1.index t (1 : Fin 2) * 128 + 1 * k.val = k.val
      omega
  -- the block of `X` is `X`, and column `q` of the result block is column `q` of the result
  have hX : iblk m c 2 t (ix2 k q) = arrX m c (ix2 k ((((cfg0.win 3).blk t).view.emb (ix2 p q)) 1)) := by
    show V m c main_call0_v1 (((cfg0.win 2).blk t).view.emb (ix2 k q)) = V m c main_call0_v1 _
    refine congrArg _ (funext fun a => Fin.ext ?_)
    match a with
    | ⟨0, _⟩ =>
      show win0_2.index t (0 : Fin 2) * 128 + 1 * k.val = k.val
      omega
    | ⟨1, _⟩ =>
      show win0_2.index t (1 : Fin 2) * 4096 + 1 * q.val = win0_3.index t (1 : Fin 2) * 4096 + 1 * q.val
      omega
  rw [hX]
  exact congrArg (· * _) (Finset.sum_congr rfl fun l _ => by rw [hA l, hW l])

/-- An index lies in point `t`'s result block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v0).slice (win0_3.rect t)).set ↔ _
  rw [View.set_slice_whole, Rect.mem_set_unit]
  exact Iff.rfl

/-- Row `r` of the result is written by point `r / 512`. -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 8 := N_0
  have ht : (i 0).val / 512 < cfg0.N := by omega
  obtain ⟨-, -, -, -, -, -, e30, e31⟩ := index_facts ⟨(i 0).val / 512, ht⟩
  have e30' : win0_3.index ⟨(i 0).val / 512, ht⟩ (0 : Fin 2) = (i 0).val / 512 := e30
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 4096 ≤ (i 1).val
      ∧ (i 1).val < win0_3.index ⟨(i 0).val / 512, ht⟩ (1 : Fin 2) * 4096 + 4096
    omega

/-- The result array after the run, over the arrays as the region finds them. -/
theorem final (c : Dev nD) : (dats m 0 c).arrAt 3 cfg0.N = layerLeft (arrX m c) (arrA m c) (arrW m c) :=
  (dats m 0 c).arrAt_eq_of_cover 3 _ (fun t _ => flushed_eq m c t) cover

/-- `A` reaches the region as launched. -/
theorem arrA_eq (c : Dev nD) : arrA m c = m ((c : Thread nD τ).loc main_arg1) := V_main_arg1 m c

/-- `W` reaches the region through a change of float format: the identity on the extended reals. -/
theorem arrW_eq (c : Dev nD) : arrW m c = (m ((c : Thread nD τ).loc main_arg2) : S4096x128.Idx → EReal) := by
  show (V m c main_call0_v0 : S4096x128.Idx → EReal) = _
  dsimp only [V, hostOps0]; after_results; rfl

/-- `X` likewise. -/
theorem arrX_eq (c : Dev nD) : arrX m c = (m ((c : Thread nD τ).loc main_arg0) : S128x4096.Idx → EReal) := by
  show (V m c main_call0_v1 : S128x4096.Idx → EReal) = _
  dsimp only [V, hostOps0]; after_results; rfl

/-- The kernel's run: the result ends at `relu ((A · W) · X)` of the three arguments as launched, which end unchanged. -/
theorem run : θ_run defs (onTc (τ := τ) (main (F := Ideal))) ⟨m, fun _ => 0, ρ⟩ fun r => ∀ c : Dev nD,
      r.2.mem ((c : Thread nD τ).loc main_v0)
        = layerLeft (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (by rw [final, arrX_eq, arrA_eq, arrW_eq]), (h c).2⟩)
    (Value.run_blocks m ρ)

end Cert.KernelIdeal.ArrayValue

end
-- ==== Proof.FiniteInputs.lean ====
import proofs.«140375_g18554258718905_cont_8to1_1676_8_alg».proof.Proof.Gen.Pre_finite_inputs
import proofs.«140375_g18554258718905_cont_8to1_1676_8_alg».proof.Proof.Reassociate
import Idealize.ShloMosaic.Lib.ReduceAll
import Idealize.ShloMosaic.Lib.Pipeline.Value
import Idealize.ShloMosaic.Lib.ValueIdx

noncomputable section

/-! # The precondition, read: every input entry is a real number

The precondition is the conjunction, over the three inputs, of "every entry's absolute value is below +∞". On the
extended reals `|x| = max x (-x)`, which is `+∞` at both infinities; so each entry is a real number. -/

namespace Cert.Pre_finite_inputs.Finite

open Cert.Pre_finite_inputs Cert.Pre_finite_inputs.Gen
open Idealize.ShloMosaic Cert.Layer

instance : Subsingleton S_.Idx := ⟨fun a b => funext fun d => d.elim0⟩

/-- The pattern the precondition compares against denotes `+∞`. -/
theorem inf_pattern : Ideal.ofBits .f32 0x7F800000#32 = (⊤ : EReal) := by
  simp [Ideal.ofBits, Ideal.ieee]

/-- An entry whose absolute value compares below the broadcast `+∞` is a real number. -/
theorem real_of_abs_lt {S : Shape} (hb : S_.BroadcastsInDim S (![] : Fin 0 → Fin S.rank)) (x : FVec Ideal S .f32) (i : S.Idx)
    (h : cmpf .olt (Host.absf x) (broadcastInDim S ![] hb (constant (F := Ideal) S_ .f32 0x7F800000#32)) i = 1#1) :
    ∃ r : ℝ, x i = (r : EReal) := by
  have hinf : broadcastInDim S ![] hb (constant (F := Ideal) S_ .f32 0x7F800000#32) i = (⊤ : EReal) := by
    rw [broadcastInDim_apply _ hb _ i (fun a => a.elim0) (fun a => a.elim0)]
    exact inf_pattern
  have h' : Ideal.cmp .olt (max (x i) (-(x i))) (⊤ : EReal) = 1#1 := by
    rw [← hinf]; exact h
  generalize x i = y at h'
  induction y using EReal.rec with
  | bot => simp [Ideal.cmp] at h'
  | top => simp [Ideal.cmp] at h'
  | coe r => exact ⟨r, rfl⟩

/-- Under the precondition each of the three inputs has only real entries. -/
theorem allReal_of_pre (x : FVec Ideal S128x4096 .f32) (a : FVec Ideal S4096x4096 .f32) (w : FVec Ideal S4096x128 .f32)
    (h : fn (F := Ideal) x a w = fun _ => 1#1) : AllReal x ∧ AllReal a ∧ AllReal w := by
  have h0 := congrFun h ValueIdx.ix0
  dsimp only [fn] at h0
  obtain ⟨hxa, hw⟩ := IntOp.andi_eq_one.1 h0
  obtain ⟨hx, ha⟩ := IntOp.andi_eq_one.1 hxa
  exact ⟨fun i => real_of_abs_lt _ x i (Host.reduce_andi_all _ _ _ _ _ hx i),
    fun i => real_of_abs_lt _ a i (Host.reduce_andi_all _ _ _ _ _ ha i),
    fun i => real_of_abs_lt _ w i (Host.reduce_andi_all _ _ _ _ _ hw i)⟩

end Cert.Pre_finite_inputs.Finite

end
-- ==== Proof.lean ====
/- The certificate of one graph layer, `relu (A · (W · X))` with `A : [4096, 4096]`, `W : [4096, 128]`,
   `X : [128, 4096]`, computed by a kernel that brackets the product the other way, `relu ((A · W) · X)`, one block of
   512 rows of `A` per grid point.

   The three frames are the generated ones (the reference's is its run with the result dropped); the idealization
   rewrote nothing, so `preserves` is `True`. For `algebraic`: the kernel's result array ends at the left-bracketed
   function of its arguments (Proof/ArrayValue.lean over Proof/BodyValue.lean), the reference's at the right-bracketed one
   (Proof/ReferenceValue.lean); the precondition makes every input entry a real number (Proof/FiniteInputs.lean), and on real
   entries the two bracketings are one function, by distributivity and the exchange of two finite sums
   (Proof/Reassociate.lean). -/
import proofs.«140375_g18554258718905_cont_8to1_1676_8_alg».proof.Defs
import proofs.«140375_g18554258718905_cont_8to1_1676_8_alg».proof.Proof.Gen.Kernel
import proofs.«140375_g18554258718905_cont_8to1_1676_8_alg».proof.Proof.Gen.Kernel.Skeleton
import proofs.«140375_g18554258718905_cont_8to1_1676_8_alg».proof.Proof.Gen.Kernel.Launch
import proofs.«140375_g18554258718905_cont_8to1_1676_8_alg».proof.Proof.Gen.Kernel.Points
import proofs.«140375_g18554258718905_cont_8to1_1676_8_alg».proof.Proof.Gen.Kernel.Frame
import proofs.«140375_g18554258718905_cont_8to1_1676_8_alg».proof.Proof.Gen.KernelIdeal
import proofs.«140375_g18554258718905_cont_8to1_1676_8_alg».proof.Proof.Gen.KernelIdeal.Skeleton
import proofs.«140375_g18554258718905_cont_8to1_1676_8_alg».proof.Proof.Gen.KernelIdeal.Launch
import proofs.«140375_g18554258718905_cont_8to1_1676_8_alg».proof.Proof.Gen.KernelIdeal.Points
import proofs.«140375_g18554258718905_cont_8to1_1676_8_alg».proof.Proof.Gen.KernelIdeal.Frame
import proofs.«140375_g18554258718905_cont_8to1_1676_8_alg».proof.Proof.Gen.ReferenceIdeal
import proofs.«140375_g18554258718905_cont_8to1_1676_8_alg».proof.Proof.Gen.Pre_finite_inputs
import proofs.«140375_g18554258718905_cont_8to1_1676_8_alg».proof.Proof.Gen.KernelIdeal.Value
import proofs.«140375_g18554258718905_cont_8to1_1676_8_alg».proof.Proof.Gen.ReferenceIdeal.Run
import proofs.«140375_g18554258718905_cont_8to1_1676_8_alg».proof.Proof.Gen.ReferenceIdeal.Read
import Idealize.ShloMosaic.Adequacy
import Idealize.ShloMosaic.Init

import proofs.«140375_g18554258718905_cont_8to1_1676_8_alg».proof.Proof.Reassociate
import proofs.«140375_g18554258718905_cont_8to1_1676_8_alg».proof.Proof.ReferenceValue
import proofs.«140375_g18554258718905_cont_8to1_1676_8_alg».proof.Proof.ArrayValue
import proofs.«140375_g18554258718905_cont_8to1_1676_8_alg».proof.Proof.FiniteInputs

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result at `relu (A · (W · X))` of the shared arguments: the reference by its run, the
    kernel by its run and the reassociation, which the precondition licenses. -/
theorem algebraic : Cert.algebraic_KernelIdeal_ReferenceIdeal := by
  intro m ρ m' ρ' hpre hagree
  refine ⟨fun c => Cert.Layer.layer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.ArrayValue.run m ρ)
    obtain ⟨hx, ha, hw⟩ := Cert.Pre_finite_inputs.Finite.allReal_of_pre _ _ _ (hpre c)
    exact Cert.Layer.layerLeft_eq_layer _ _ _ hx ha hw
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v2_eq, Cert.ReferenceIdeal.RefValue.result_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
